-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x64 : Shape := ⟨3, ![64, 8192, 64]⟩
abbrev S4x8x3 : Shape := ⟨3, ![4, 8, 3]⟩
abbrev S4x7 : Shape := ⟨2, ![4, 7]⟩
abbrev S16x8 : Shape := ⟨2, ![16, 8]⟩
abbrev S16 : Shape := ⟨1, ![16]⟩
abbrev S_ : Shape := ⟨0, ![]⟩

class Facts : Prop where
  bcast_S_S64x8192x64 : S_.BroadcastsInDim S64x8192x64 (![] : Fin 0 → Fin S64x8192x64.rank)
  reducesTo_S64x8192x64_S_d0_1_2 : S64x8192x64.ReducesTo [0, 1, 2] S_
  h_S_ : 0 < S_.numel
  bcast_S_S4x8x3 : S_.BroadcastsInDim S4x8x3 (![] : Fin 0 → Fin S4x8x3.rank)
  reducesTo_S4x8x3_S_d0_1_2 : S4x8x3.ReducesTo [0, 1, 2] S_
  bcast_S_S4x7 : S_.BroadcastsInDim S4x7 (![] : Fin 0 → Fin S4x7.rank)
  reducesTo_S4x7_S_d0_1 : S4x7.ReducesTo [0, 1] S_
  bcast_S_S16x8 : S_.BroadcastsInDim S16x8 (![] : Fin 0 → Fin S16x8.rank)
  reducesTo_S16x8_S_d0_1 : S16x8.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S64x8192x64 .f32) (main_arg1 : FVec F S4x8x3 .f32) (main_arg2 : FVec F S4x7 .f32) (main_arg3 : FVec F S16x8 .f32) (main_arg4 : FVec F S16 .f32) : IVec S_ 1 :=
  let main_v0 : FVec F S64x8192x64 .f32 := Host.absf main_arg0
  let main_cst : FVec F S_ .f32 := constant S_ .f32 0x7F800000#32
  let main_v1 : FVec F S64x8192x64 .f32 := broadcastInDim S64x8192x64 ![] bcast_S_S64x8192x64 main_cst
  let main_v2 : IVec S64x8192x64 1 := cmpf .olt main_v0 main_v1
  let main_c : IVec S_ 1 := constantI S_ 1 1#1
  let main_v3 : IVec S_ 1 := (fun x v => Host.reduce IntOp.andi x v reducesTo_S64x8192x64_S_d0_1_2 h_S_) main_v2 main_c
  let main_v4 : FVec F S4x8x3 .f32 := Host.absf main_arg1
  let main_cst_0 : FVec F S_ .f32 := constant S_ .f32 0x7F800000#32
  let main_v5 : FVec F S4x8x3 .f32 := broadcastInDim S4x8x3 ![] bcast_S_S4x8x3 main_cst_0
  let main_v6 : IVec S4x8x3 1 := cmpf .olt main_v4 main_v5
  let main_c_1 : IVec S_ 1 := constantI S_ 1 1#1
  let main_v7 : IVec S_ 1 := (fun x v => Host.reduce IntOp.andi x v reducesTo_S4x8x3_S_d0_1_2 h_S_) main_v6 main_c_1
  let main_v8 : IVec S_ 1 := andi main_v3 main_v7
  let main_v9 : FVec F S4x7 .f32 := Host.absf main_arg2
  let main_cst_2 : FVec F S_ .f32 := constant S_ .f32 0x7F800000#32
  let main_v10 : FVec F S4x7 .f32 := broadcastInDim S4x7 ![] bcast_S_S4x7 main_cst_2
  let main_v11 : IVec S4x7 1 := cmpf .olt main_v9 main_v10
  let main_c_3 : IVec S_ 1 := constantI S_ 1 1#1
  let main_v12 : IVec S_ 1 := (fun x v => Host.reduce IntOp.andi x v reducesTo_S4x7_S_d0_1 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_v13 main_v16
-- ==== Kernel.lean ====
abbrev S64x8192x64 : Shape := ⟨3, ![64, 8192, 64]⟩
abbrev S4x8x3 : Shape := ⟨3, ![4, 8, 3]⟩
abbrev S4x7 : Shape := ⟨2, ![4, 7]⟩
abbrev S16x8 : Shape := ⟨2, ![16, 8]⟩
abbrev S16 : Shape := ⟨1, ![16]⟩
abbrev S524288x64 : Shape := ⟨2, ![524288, 64]⟩
abbrev S524288x16 : Shape := ⟨2, ![524288, 16]⟩
abbrev S8192x64 : Shape := ⟨2, ![8192, 64]⟩
abbrev S8192x16 : Shape := ⟨2, ![8192, 16]⟩
abbrev S8192x8 : Shape := ⟨2, ![8192, 8]⟩
abbrev S1x8x3 : Shape := ⟨3, ![1, 8, 3]⟩
abbrev S8x3 : Shape := ⟨2, ![8, 3]⟩
abbrev S8x1 : Shape := ⟨2, ![8, 1]⟩
abbrev S8 : Shape := ⟨1, ![8]⟩
abbrev S1x8 : Shape := ⟨2, ![1, 8]⟩
abbrev S1x7 : Shape := ⟨2, ![1, 7]⟩
abbrev S7 : Shape := ⟨1, ![7]⟩
abbrev S8192x7 : Shape := ⟨2, ![8192, 7]⟩
abbrev S8192x1 : Shape := ⟨2, ![8192, 1]⟩
abbrev S1x16 : Shape := ⟨2, ![1, 16]⟩
abbrev S64x8192x16 : Shape := ⟨3, ![64, 8192, 16]⟩

abbrev nBuf : Space → Nat
  | .hbm => 8
  | .vmem => 8
  | .smem => 0
  | _ => 0

abbrev bufTy : (tb : Table) → Fin (tcTables nBuf tb) → BufTy
  | .hbm, ⟨0, _⟩ => ⟨S64x8192x64, .f32⟩
  | .hbm, ⟨1, _⟩ => ⟨S4x8x3, .f32⟩
  | .hbm, ⟨2, _⟩ => ⟨S4x7, .f32⟩
  | .hbm, ⟨3, _⟩ => ⟨S16x8, .f32⟩
  | .hbm, ⟨4, _⟩ => ⟨S16, .f32⟩
  | .hbm, ⟨5, _⟩ => ⟨S524288x64, .f32⟩
  | .hbm, ⟨6, _⟩ => ⟨S524288x16, .f32⟩
  | .hbm, ⟨7, _⟩ => ⟨S64x8192x16, .f32⟩
  | .local _ .vmem, ⟨0, _⟩ => ⟨S8192x64, .f32⟩
  | .local _ .vmem, ⟨1, _⟩ => ⟨S8192x64, .f32⟩
  | .local _ .vmem, ⟨2, _⟩ => ⟨S4x8x3, .f32⟩
  | .local _ .vmem, ⟨3, _⟩ => ⟨S4x7, .f32⟩
  | .local _ .vmem, ⟨4, _⟩ => ⟨S16x8, .f32⟩
  | .local _ .vmem, ⟨5, _⟩ => ⟨S16, .f32⟩
  | .local _ .vmem, ⟨6, _⟩ => ⟨S8192x16, .f32⟩
  | .local _ .vmem, ⟨7, _⟩ => ⟨S8192x16, .f32⟩
  | _, _ => ⟨S64x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x8192x64_S524288x64 : S64x8192x64.ShapeCasts S524288x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  slices_S8192x64_o0_0_S8192x8 : S8192x64.Slices ![0, 0] S8192x8
  inb_S4x8x3_S4x8x3_0_0_0 : ∀ a, (![0, 0, 0] : Fin 3 → Nat) a + S4x8x3.size a ≤ S4x8x3.size a
  h_S4x8x3 : 0 < S4x8x3.numel
  inb_S4x7_S4x7_0_0 : ∀ a, (![0, 0] : Fin 2 → Nat) a + S4x7.size a ≤ S4x7.size a
  h_S4x7 : 0 < S4x7.numel
  slices_S4x8x3_o0_0_0_S1x8x3 : S4x8x3.Slices ![0, 0, 0] S1x8x3
  shapeCasts_S1x8x3_S8x3 : S1x8x3.ShapeCasts S8x3
  slices_S8x3_o0_0_S8x1 : S8x3.Slices ![0, 0] S8x1
  shapeCasts_S8x1_S8 : S8x1.ShapeCasts S8
  slices_S8x3_o0_1_S8x1 : S8x3.Slices ![0, 1] S8x1
  slices_S8x3_o0_2_S8x1 : S8x3.Slices ![0, 2] S8x1
  shapeCasts_S8_S1x8 : S8.ShapeCasts S1x8
  broadcasts_S1x8_S8192x8 : S1x8.Broadcasts S8192x8
  slices_S4x7_o0_0_S1x7 : S4x7.Slices ![0, 0] S1x7
  shapeCasts_S1x7_S7 : S1x7.ShapeCasts S7
  slices_S8192x8_o0_0_S8192x7 : S8192x8.Slices ![0, 0] S8192x7
  shapeCasts_S7_S1x7 : S7.ShapeCasts S1x7
  broadcasts_S1x7_S8192x7 : S1x7.Broadcasts S8192x7
  slices_S8192x8_o0_1_S8192x7 : S8192x8.Slices ![0, 1] S8192x7
  slices_S8192x8_o0_7_S8192x1 : S8192x8.Slices ![0, 7] S8192x1
  concatenates_S8192x7_S8192x1_S8192x8_d1 : Shape.Concatenates [S8192x7, S8192x1] S8192x8 1
  slices_S4x8x3_o1_0_0_S1x8x3 : S4x8x3.Slices ![1, 0, 0] S1x8x3
  slices_S4x7_o1_0_S1x7 : S4x7.Slices ![1, 0] S1x7
  slices_S4x8x3_o2_0_0_S1x8x3 : S4x8x3.Slices ![2, 0, 0] S1x8x3
  slices_S4x7_o2_0_S1x7 : S4x7.Slices ![2, 0] S1x7
  slices_S4x8x3_o3_0_0_S1x8x3 : S4x8x3.Slices ![3, 0, 0] S1x8x3
  slices_S4x7_o3_0_S1x7 : S4x7.Slices ![3, 0] S1x7
  inb_S16x8_S16x8_0_0 : ∀ a, (![0, 0] : Fin 2 → Nat) a + S16x8.size a ≤ S16x8.size a
  h_S16x8 : 0 < S16x8.numel
  inb_S16_S16_0 : ∀ a, (![0] : Fin 1 → Nat) a + S16.size a ≤ S16.size a
  h_S16 : 0 < S16.numel
  bitsLt_bf16_f32 : FTy.bits .bf16 < FTy.bits .f32
  shapeCasts_S16_S1x16 : S16.ShapeCasts S1x16
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  shapeCasts_S524288x16_S64x8192x16 : S524288x16.ShapeCasts S64x8192x16
  dot_S8192x8_S16x8_S8192x16_1_1_0_0_n_n_wf : DotDims.WF S8192x8 S16x8 S8192x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S524288x64.size a
  hwx0_0 : ∀ i : grid0.Coords, EltTy.bits .f32 = 32 ∨ (Rect.block (s := S524288x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8x3.size a ≤ S4x8x3.size a
  hwx0_1 : ∀ i : grid0.Coords, EltTy.bits .f32 = 32 ∨ (Rect.block (s := S4x8x3) S4x8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x7.size a ≤ S4x7.size a
  hwx0_2 : ∀ i : grid0.Coords, EltTy.bits .f32 = 32 ∨ (Rect.block (s := S4x7) S4x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S16x8.size a
  hwx0_3 : ∀ i : grid0.Coords, EltTy.bits .f32 = 32 ∨ (Rect.block (s := S16x8) S16x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x16.size a ≤ S524288x16.size a
  hwx0_5 : ∀ i : grid0.Coords, EltTy.bits .f32 = 32 ∨ (Rect.block (s := S524288x16) S8192x16.size (cc0_transform_5 i) (hinb0_5 i)).WholeWords (EltTy.packing .f32)

variable [Facts₀]

def dot_S8192x8_S16x8_S8192x16_1_1_0_0_n_n : DotDims S8192x8 S16x8 S8192x16 where
  lhsContracting := [1]
  rhsContracting := [1]
  lhsNonContracting := [0]
  rhsNonContracting := [0]
  lhsBatch := []
  rhsBatch := []
  wf := dot_S8192x8_S16x8_S8192x16_1_1_0_0_n_n_wf

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x8x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8192x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x8192x64 : Shape := ⟨3, ![64, 8192, 64]⟩
abbrev S4x8x3 : Shape := ⟨3, ![4, 8, 3]⟩
abbrev S4x7 : Shape := ⟨2, ![4, 7]⟩
abbrev S16x8 : Shape := ⟨2, ![16, 8]⟩
abbrev S16 : Shape := ⟨1, ![16]⟩
abbrev S64x8192x8 : Shape := ⟨3, ![64, 8192, 8]⟩
abbrev S1x8x3 : Shape := ⟨3, ![1, 8, 3]⟩
abbrev S8x3 : Shape := ⟨2, ![8, 3]⟩
abbrev S8x1 : Shape := ⟨2, ![8, 1]⟩
abbrev S8 : Shape := ⟨1, ![8]⟩
abbrev S1x1x8 : Shape := ⟨3, ![1, 1, 8]⟩
abbrev S1x7 : Shape := ⟨2, ![1, 7]⟩
abbrev S7 : Shape := ⟨1, ![7]⟩
abbrev S_ : Shape := ⟨0, ![]⟩
abbrev S64x8192x7 : Shape := ⟨3, ![64, 8192, 7]⟩
abbrev S1x1x7 : Shape := ⟨3, ![1, 1, 7]⟩
abbrev S64x8192x1 : Shape := ⟨3, ![64, 8192, 1]⟩
abbrev S64x8192x16 : Shape := ⟨3, ![64, 8192, 16]⟩
abbrev S1x1x16 : Shape := ⟨3, ![1, 1, 16]⟩

abbrev nBuf : Space → Nat
  | .hbm => 219
  | .vmem => 0
  | .smem => 0
  | _ => 0

abbrev hbmTy0_0 (i : Nat) : BufTy := match i % 128 with
  | 0 => ⟨S64x8192x64, .f32⟩
  | 1 => ⟨S4x8x3, .f32⟩
  | 2 => ⟨S4x7, .f32⟩
  | 3 => ⟨S16x8, .f32⟩
  | 4 => ⟨S16, .f32⟩
  | 5 => ⟨S64x8192x8, .f32⟩
  | 6 => ⟨S64x8192x8, .f32⟩
  | 7 => ⟨S1x8x3, .f32⟩
  | 8 => ⟨S8x3, .f32⟩
  | 9 => ⟨S8x1, .f32⟩
  | 10 => ⟨S8, .f32⟩
  | 11 => ⟨S8, .f32⟩
  | 12 => ⟨S8x1, .f32⟩
  | 13 => ⟨S8, .f32⟩
  | 14 => ⟨S8, .f32⟩
  | 15 => ⟨S8, .f32⟩
  | 16 => ⟨S8x1, .f32⟩
  | 17 => ⟨S8, .f32⟩
  | 18 => ⟨S8, .f32⟩
  | 19 => ⟨S8x1, .f32⟩
  | 20 => ⟨S8, .f32⟩
  | 21 => ⟨S8, .f32⟩
  | 22 => ⟨S8, .f32⟩
  | 23 => ⟨S8, .f32⟩
  | 24 => ⟨S8x1, .f32⟩
  | 25 => ⟨S8, .f32⟩
  | 26 => ⟨S8, .f32⟩
  | 27 => ⟨S8x1, .f32⟩
  | 28 => ⟨S8, .f32⟩
  | 29 => ⟨S8, .f32⟩
  | 30 => ⟨S8, .f32⟩
  | 31 => ⟨S8, .f32⟩
  | 32 => ⟨S1x1x8, .f32⟩
  | 33 => ⟨S64x8192x8, .f32⟩
  | 34 => ⟨S64x8192x8, .f32⟩
  | 35 => ⟨S1x7, .f32⟩
  | 36 => ⟨S7, .f32⟩
  | 37 => ⟨S7, .f32⟩
  | 38 => ⟨S7, .f32⟩
  | 39 => ⟨S_, .f32⟩
  | 40 => ⟨S7, .f32⟩
  | 41 => ⟨S7, .f32⟩
  | 42 => ⟨S_, .f32⟩
  | 43 => ⟨S7, .f32⟩
  | 44 => ⟨S7, .f32⟩
  | 45 => ⟨S64x8192x7, .f32⟩
  | 46 => ⟨S_, .f32⟩
  | 47 => ⟨S7, .f32⟩
  | 48 => ⟨S7, .f32⟩
  | 49 => ⟨S1x1x7, .f32⟩
  | 50 => ⟨S64x8192x7, .f32⟩
  | 51 => ⟨S64x8192x7, .f32⟩
  | 52 => ⟨S64x8192x7, .f32⟩
  | 53 => ⟨S1x1x7, .f32⟩
  | 54 => ⟨S64x8192x7, .f32⟩
  | 55 => ⟨S64x8192x7, .f32⟩
  | 56 => ⟨S64x8192x7, .f32⟩
  | 57 => ⟨S64x8192x1, .f32⟩
  | 58 => ⟨S64x8192x8, .f32⟩
  | 59 => ⟨S1x8x3, .f32⟩
  | 60 => ⟨S8x3, .f32⟩
  | 61 => ⟨S8x1, .f32⟩
  | 62 => ⟨S8, .f32⟩
  | 63 => ⟨S8, .f32⟩
  | 64 => ⟨S8x1, .f32⟩
  | 65 => ⟨S8, .f32⟩
  | 66 => ⟨S8, .f32⟩
  | 67 => ⟨S8, .f32⟩
  | 68 => ⟨S8x1, .f32⟩
  | 69 => ⟨S8, .f32⟩
  | 70 => ⟨S8, .f32⟩
  | 71 => ⟨S8x1, .f32⟩
  | 72 => ⟨S8, .f32⟩
  | 73 => ⟨S8, .f32⟩
  | 74 => ⟨S8, .f32⟩
  | 75 => ⟨S8, .f32⟩
  | 76 => ⟨S8x1, .f32⟩
  | 77 => ⟨S8, .f32⟩
  | 78 => ⟨S8, .f32⟩
  | 79 => ⟨S8x1, .f32⟩
  | 80 => ⟨S8, .f32⟩
  | 81 => ⟨S8, .f32⟩
  | 82 => ⟨S8, .f32⟩
  | 83 => ⟨S8, .f32⟩
  | 84 => ⟨S1x1x8, .f32⟩
  | 85 => ⟨S64x8192x8, .f32⟩
  | 86 => ⟨S64x8192x8, .f32⟩
  | 87 => ⟨S1x7, .f32⟩
  | 88 => ⟨S7, .f32⟩
  | 89 => ⟨S7, .f32⟩
  | 90 => ⟨S7, .f32⟩
  | 91 => ⟨S_, .f32⟩
  | 92 => ⟨S7, .f32⟩
  | 93 => ⟨S7, .f32⟩
  | 94 => ⟨S_, .f32⟩
  | 95 => ⟨S7, .f32⟩
  | 96 => ⟨S7, .f32⟩
  | 97 => ⟨S64x8192x7, .f32⟩
  | 98 => ⟨S_, .f32⟩
  | 99 => ⟨S7, .f32⟩
  | 100 => ⟨S7, .f32⟩
  | 101 => ⟨S1x1x7, .f32⟩
  | 102 => ⟨S64x8192x7, .f32⟩
  | 103 => ⟨S64x8192x7, .f32⟩
  | 104 => ⟨S64x8192x7, .f32⟩
  | 105 => ⟨S1x1x7, .f32⟩
  | 106 => ⟨S64x8192x7, .f32⟩
  | 107 => ⟨S64x8192x7, .f32⟩
  | 108 => ⟨S64x8192x7, .f32⟩
  | 109 => ⟨S64x8192x1, .f32⟩
  | 110 => ⟨S64x8192x8, .f32⟩
  | 111 => ⟨S1x8x3, .f32⟩
  | 112 => ⟨S8x3, .f32⟩
  | 113 => ⟨S8x1, .f32⟩
  | 114 => ⟨S8, .f32⟩
  | 115 => ⟨S8, .f32⟩
  | 116 => ⟨S8x1, .f32⟩
  | 117 => ⟨S8, .f32⟩
  | 118 => ⟨S8, .f32⟩
  | 119 => ⟨S8, .f32⟩
  | 120 => ⟨S8x1, .f32⟩
  | 121 => ⟨S8, .f32⟩
  | 122 => ⟨S8, .f32⟩
  | 123 => ⟨S8x1, .f32⟩
  | 124 => ⟨S8, .f32⟩
  | 125 => ⟨S8, .f32⟩
  | 126 => ⟨S8, .f32⟩
  | 127 => ⟨S8, .f32⟩
  | _ => ⟨S64x8192x64, .f32⟩

abbrev hbmTy0_1 (i : Nat) : BufTy := match i % 128 with
  | 0 => ⟨S8x1, .f32⟩
  | 1 => ⟨S8, .f32⟩
  | 2 => ⟨S8, .f32⟩
  | 3 => ⟨S8x1, .f32⟩
  | 4 => ⟨S8, .f32⟩
  | 5 => ⟨S8, .f32⟩
  | 6 => ⟨S8, .f32⟩
  | 7 => ⟨S8, .f32⟩
  | 8 => ⟨S1x1x8, .f32⟩
  | 9 => ⟨S64x8192x8, .f32⟩
  | 10 => ⟨S64x8192x8, .f32⟩
  | 11 => ⟨S1x7, .f32⟩
  | 12 => ⟨S7, .f32⟩
  | 13 => ⟨S7, .f32⟩
  | 14 => ⟨S7, .f32⟩
  | 15 => ⟨S_, .f32⟩
  | 16 => ⟨S7, .f32⟩
  | 17 => ⟨S7, .f32⟩
  | 18 => ⟨S_, .f32⟩
  | 19 => ⟨S7, .f32⟩
  | 20 => ⟨S7, .f32⟩
  | 21 => ⟨S64x8192x7, .f32⟩
  | 22 => ⟨S_, .f32⟩
  | 23 => ⟨S7, .f32⟩
  | 24 => ⟨S7, .f32⟩
  | 25 => ⟨S1x1x7, .f32⟩
  | 26 => ⟨S64x8192x7, .f32⟩
  | 27 => ⟨S64x8192x7, .f32⟩
  | 28 => ⟨S64x8192x7, .f32⟩
  | 29 => ⟨S1x1x7, .f32⟩
  | 30 => ⟨S64x8192x7, .f32⟩
  | 31 => ⟨S64x8192x7, .f32⟩
  | 32 => ⟨S64x8192x7, .f32⟩
  | 33 => ⟨S64x8192x1, .f32⟩
  | 34 => ⟨S64x8192x8, .f32⟩
  | 35 => ⟨S1x8x3, .f32⟩
  | 36 => ⟨S8x3, .f32⟩
  | 37 => ⟨S8x1, .f32⟩
  | 38 => ⟨S8, .f32⟩
  | 39 => ⟨S8, .f32⟩
  | 40 => ⟨S8x1, .f32⟩
  | 41 => ⟨S8, .f32⟩
  | 42 => ⟨S8, .f32⟩
  | 43 => ⟨S8, .f32⟩
  | 44 => ⟨S8x1, .f32⟩
  | 45 => ⟨S8, .f32⟩
  | 46 => ⟨S8, .f32⟩
  | 47 => ⟨S8x1, .f32⟩
  | 48 => ⟨S8, .f32⟩
  | 49 => ⟨S8, .f32⟩
  | 50 => ⟨S8, .f32⟩
  | 51 => ⟨S8, .f32⟩
  | 52 => ⟨S8x1, .f32⟩
  | 53 => ⟨S8, .f32⟩
  | 54 => ⟨S8, .f32⟩
  | 55 => ⟨S8x1, .f32⟩
  | 56 => ⟨S8, .f32⟩
  | 57 => ⟨S8, .f32⟩
  | 58 => ⟨S8, .f32⟩
  | 59 => ⟨S8, .f32⟩
  | 60 => ⟨S1x1x8, .f32⟩
  | 61 => ⟨S64x8192x8, .f32⟩
  | 62 => ⟨S64x8192x8, .f32⟩
  | 63 => ⟨S1x7, .f32⟩
  | 64 => ⟨S7, .f32⟩
  | 65 => ⟨S7, .f32⟩
  | 66 => ⟨S7, .f32⟩
  | 67 => ⟨S_, .f32⟩
  | 68 => ⟨S7, .f32⟩
  | 69 => ⟨S7, .f32⟩
  | 70 => ⟨S_, .f32⟩
  | 71 => ⟨S7, .f32⟩
  | 72 => ⟨S7, .f32⟩
  | 73 => ⟨S64x8192x7, .f32⟩
  | 74 => ⟨S_, .f32⟩
  | 75 => ⟨S7, .f32⟩
  | 76 => ⟨S7, .f32⟩
  | 77 => ⟨S1x1x7, .f32⟩
  | 78 => ⟨S64x8192x7, .f32⟩
  | 79 => ⟨S64x8192x7, .f32⟩
  | 80 => ⟨S64x8192x7, .f32⟩
  | 81 => ⟨S1x1x7, .f32⟩
  | 82 => ⟨S64x8192x7, .f32⟩
  | 83 => ⟨S64x8192x7, .f32⟩
  | 84 => ⟨S64x8192x7, .f32⟩
  | 85 => ⟨S64x8192x1, .f32⟩
  | 86 => ⟨S64x8192x8, .f32⟩
  | 87 => ⟨S64x8192x16, .f32⟩
  | 88 => ⟨S1x1x16, .f32⟩
  | 89 => ⟨S64x8192x16, .f32⟩
  | 90 => ⟨S64x8192x16, .f32⟩
  | _ => ⟨S64x8192x64, .f32⟩

abbrev hbmTy (i : Nat) : BufTy := match i / 128 with
  | 0 => hbmTy0_0 i
  | 1 => hbmTy0_1 i
  | _ => ⟨S64x8192x64, .f32⟩

abbrev bufTy : (tb : Table) → Fin (tcTables nBuf tb) → BufTy
  | .hbm, ⟨i, _⟩ => hbmTy i
  | _, _ => ⟨S64x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_2 : Ref sig .tc := ⟨.hbm, 91, rfl⟩
abbrev main_v83 : Ref sig .tc := ⟨.hbm, 92, rfl⟩
abbrev main_v84 : Ref sig .tc := ⟨.hbm, 93, rfl⟩
abbrev main_cst_3 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_cst_4 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_cst_5 : Ref sig .tc := ⟨.hbm, 143, rfl⟩
abbrev main_v132 : Ref sig .tc := ⟨.hbm, 144, rfl⟩
abbrev main_v133 : Ref sig .tc := ⟨.hbm, 145, rfl⟩
abbrev main_cst_6 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_cst_7 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_cst_8 : Ref sig .tc := ⟨.hbm, 195, rfl⟩
abbrev main_v181 : Ref sig .tc := ⟨.hbm, 196, rfl⟩
abbrev main_v182 : Ref sig .tc := ⟨.hbm, 197, rfl⟩
abbrev main_cst_9 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_cst_10 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩

abbrev nD : Nat := 1
abbrev τ : Topo := Topo.v7x

variable {F : FTy → Type} [FloatOps F]

class Facts₀ : Prop where
  slices_S64x8192x64_S64x8192x8_0_0_0 : S64x8192x64.Slices ![0, 0, 0] S64x8192x8
  slices_S4x8x3_S1x8x3_0_0_0 : S4x8x3.Slices ![0, 0, 0] S1x8x3
  shapeCasts_S1x8x3_S8x3 : S1x8x3.ShapeCasts S8x3
  slices_S8x3_S8x1_0_0 : S8x3.Slices ![0, 0] S8x1
  shapeCasts_S8x1_S8 : S8x1.ShapeCasts S8
  slices_S8x3_S8x1_0_1 : S8x3.Slices ![0, 1] S8x1
  slices_S8x3_S8x1_0_2 : S8x3.Slices ![0, 2] S8x1
  bcast_S8_S1x1x8_2 : S8.BroadcastsInDim S1x1x8 (![2] : Fin 1 → Fin S1x1x8.rank)
  bcast_S1x1x8_S64x8192x8_0_1_2 : S1x1x8.BroadcastsInDim S64x8192x8 (![0, 1, 2] : Fin 3 → Fin S64x8192x8.rank)
  slices_S4x7_S1x7_0_0 : S4x7.Slices ![0, 0] S1x7
  shapeCasts_S1x7_S7 : S1x7.ShapeCasts S7
  bcast_S_S7 : S_.BroadcastsInDim S7 (![] : Fin 0 → Fin S7.rank)
  slices_S64x8192x8_S64x8192x7_0_0_0 : S64x8192x8.Slices ![0, 0, 0] S64x8192x7
  bcast_S7_S1x1x7_2 : S7.BroadcastsInDim S1x1x7 (![2] : Fin 1 → Fin S1x1x7.rank)
  bcast_S1x1x7_S64x8192x7_0_1_2 : S1x1x7.BroadcastsInDim S64x8192x7 (![0, 1, 2] : Fin 3 → Fin S64x8192x7.rank)
  slices_S64x8192x8_S64x8192x7_0_0_1 : S64x8192x8.Slices ![0, 0, 1] S64x8192x7
  slices_S64x8192x8_S64x8192x1_0_0_7 : S64x8192x8.Slices ![0, 0, 7] S64x8192x1
  concatenates_S64x8192x7_S64x8192x1_S64x8192x8_d2 : Shape.Concatenates [S64x8192x7, S64x8192x1] S64x8192x8 2
  slices_S4x8x3_S1x8x3_1_0_0 : S4x8x3.Slices ![1, 0, 0] S1x8x3
  slices_S4x7_S1x7_1_0 : S4x7.Slices ![1, 0] S1x7
  slices_S4x8x3_S1x8x3_2_0_0 : S4x8x3.Slices ![2, 0, 0] S1x8x3
  slices_S4x7_S1x7_2_0 : S4x7.Slices ![2, 0] S1x7
  slices_S4x8x3_S1x8x3_3_0_0 : S4x8x3.Slices ![3, 0, 0] S1x8x3
  slices_S4x7_S1x7_3_0 : S4x7.Slices ![3, 0] S1x7
  bcast_S16_S1x1x16_2 : S16.BroadcastsInDim S1x1x16 (![2] : Fin 1 → Fin S1x1x16.rank)
  bcast_S1x1x16_S64x8192x16_0_1_2 : S1x1x16.BroadcastsInDim S64x8192x16 (![0, 1, 2] : Fin 3 → Fin S64x8192x16.rank)
  dot_S64x8192x8_S16x8_S64x8192x16_2_1_01_0_n_n_wf : DotDims.WF S64x8192x8 S16x8 S64x8192x16 [2] [1] [0, 1] [0] [] []

variable [Facts₀]

def dot_S64x8192x8_S16x8_S64x8192x16_2_1_01_0_n_n : DotDims S64x8192x8 S16x8 S64x8192x16 where
  lhsContracting := [2]
  rhsContracting := [1]
  lhsNonContracting := [0, 1]
  rhsNonContracting := [0]
  lhsBatch := []
  rhsBatch := []
  wf := dot_S64x8192x8_S16x8_S64x8192x16_2_1_01_0_n_n_wf

class Facts : Prop extends Facts₀ where

variable [Facts]
-- ==== Proof.RowSpec.lean ====
/-
  The mathematics both programs compute, stated once on the extended reals and row by row.

  A row of the input carries eight amplitudes q₀[k] = tanh x[k] (k < 8; the other 56 features are never read).
  Four layers follow. Layer l multiplies amplitude k by the scale
      s_l[k] = (cos r₀ + sin r₀)(cos r₁ + sin r₁)(cos r₂ + sin r₂),   r_j = rot[l, k, j],
  and then mixes neighbours through the gate g_l[k] = logistic(ent[l, k]) (k < 7):
      q'[k] = z[k]·(1 − g_l[k]) + z[k+1]·g_l[k]   (k < 7),      q'[7] = z[7],      z[k] = q[k]·s_l[k].
  The result is the affine image of the last amplitudes: out[o] = Σ_k q₄[k]·w[o, k] + b[o].

  The literal 1 of `1 − g` is kept as the f32 pattern both programs spell it with; only where the reference
  expands the logistic into 1 / (1 + e^(−x)) is the pattern's value (the real 1) used.
-/
import Idealize.ShloMosaic.PureOps.Ideal
import Idealize.ShloMosaic.PureOps.Ideal.Laws
import Idealize.ShloMosaic.Lib.ValueIdx

noncomputable section

namespace Cert.Qcl

open Idealize.ShloMosaic Idealize.ShloMosaic.ValueIdx

/-- The f32 pattern of 1.0, as an extended real. -/
abbrev one32 : EReal := Ideal.ofBits .f32 0x3F800000#32

/-- The pattern 0x3F800000 denotes the real 1: sign 0, exponent field 127 (the bias), fraction 0. -/
theorem one32_eq : one32 = 1 := by
  simp [one32, Ideal.ofBits, Ideal.ieee]
  rw [← EReal.coe_mul, ← EReal.coe_one]
  exact congrArg _ (by norm_num)

/-- The logistic as the reference spells it, 1 / (1 + e^(−x)) with both ones the f32 pattern, is the logistic. -/
theorem logistic_expanded (x : EReal) :
    Ideal.div one32 (one32 + Ideal.exp (-x)) = Ideal.logistic x := by
  rw [one32_eq]; rfl

/-- Layer `l`'s scale of amplitude `k`: the product over the three rotation angles of cos + sin. -/
def scl (rot : (⟨3, ![4, 8, 3]⟩ : Shape).Idx → EReal) (l : Fin 4) (k : Fin 8) : EReal :=
  (Ideal.cos (rot (ix3 l k 0)) + Ideal.sin (rot (ix3 l k 0)))
    * (Ideal.cos (rot (ix3 l k 1)) + Ideal.sin (rot (ix3 l k 1)))
    * (Ideal.cos (rot (ix3 l k 2)) + Ideal.sin (rot (ix3 l k 2)))

/-- Layer `l`'s gate between amplitudes `k` and `k + 1`. -/
def gate (ent : (⟨2, ![4, 7]⟩ : Shape).Idx → EReal) (l : Fin 4) (k : Fin 7) : EReal :=
  Ideal.logistic (ent (ix2 l k))

/-- The neighbour mix of a row `z` through gates `g`: the last amplitude passes through. -/
def mixRow (g : Fin 7 → EReal) (z : Fin 8 → EReal) (k : Fin 8) : EReal :=
  if h : k.val < 7 then z k * (one32 - g ⟨k.val, h⟩) + z ⟨k.val + 1, by omega⟩ * g ⟨k.val, h⟩ else z k

/-- One layer on a row: scale, then mix. -/
def layer (rot : (⟨3, ![4, 8, 3]⟩ : Shape).Idx → EReal) (ent : (⟨2, ![4, 7]⟩ : Shape).Idx → EReal) (l : Fin 4)
    (q : Fin 8 → EReal) : Fin 8 → EReal :=
  mixRow (gate ent l) (fun k => q k * scl rot l k)

/-- The four layers on a row. -/
def layers (rot : (⟨3, ![4, 8, 3]⟩ : Shape).Idx → EReal) (ent : (⟨2, ![4, 7]⟩ : Shape).Idx → EReal)
    (q : Fin 8 → EReal) : Fin 8 → EReal :=
  layer rot ent 3 (layer rot ent 2 (layer rot ent 1 (layer rot ent 0 q)))

/-- The projection of a row of amplitudes: Σ_k q[k]·w[o, k] + b[o]. -/
def project (w : (⟨2, ![16, 8]⟩ : Shape).Idx → EReal) (b : (⟨1, ![16]⟩ : Shape).Idx → EReal)
    (q : Fin 8 → EReal) (o : Fin 16) : EReal :=
  (∑ k : Fin 8, q k * w (ix2 o k)) + b (ix1 o)

/-- Feature `k < 8` among the 64 of a row. -/
abbrev feat (k : Fin 8) : Fin 64 := ⟨k.val, by omega⟩

/-- The whole result, over the input laid out as [64, 8192, 64]: entry (b, s, o) is the projection of the four
    layers applied to tanh of row (b, s)'s first eight features. -/
def result (x : (⟨3, ![64, 8192, 64]⟩ : Shape).Idx → EReal) (rot : (⟨3, ![4, 8, 3]⟩ : Shape).Idx → EReal)
    (ent : (⟨2, ![4, 7]⟩ : Shape).Idx → EReal) (w : (⟨2, ![16, 8]⟩ : Shape).Idx → EReal)
    (b : (⟨1, ![16]⟩ : Shape).Idx → EReal) : (⟨3, ![64, 8192, 16]⟩ : Shape).Idx → EReal :=
  fun i => project w b (layers rot ent (fun k => Ideal.tanh (x (ix3 (i 0) (i 1) (feat k))))) (i 2)

/-- The same over the input laid out as [524288, 64] (rows flattened), the result as [524288, 16]. -/
def resultFlat (x : (⟨2, ![524288, 64]⟩ : Shape).Idx → EReal) (rot : (⟨3, ![4, 8, 3]⟩ : Shape).Idx → EReal)
    (ent : (⟨2, ![4, 7]⟩ : Shape).Idx → EReal) (w : (⟨2, ![16, 8]⟩ : Shape).Idx → EReal)
    (b : (⟨1, ![16]⟩ : Shape).Idx → EReal) : (⟨2, ![524288, 16]⟩ : Shape).Idx → EReal :=
  fun i => project w b (layers rot ent (fun k => Ideal.tanh (x (ix2 (i 0) (feat k))))) (i 1)

end Cert.Qcl

end
-- ==== Proof.KernelRow.lean ====
/-
  The kernel's body, row by row.

  The body computes on a block of 8192 rows at once, but every operation in it is either pointwise in the row
  or reads one row of a small parameter array, so the block's value at row p and column k depends on row p of
  the input block only. This module names the body's repeated pieces — the scale of a layer (a function of an
  [8, 3] array of angles), the neighbour mix of a [8192, 8] state through a [7] gate vector, the slices of the
  parameter arrays by layer — and reads each at an index on the extended reals, in the vocabulary of the row
  specification. The whole payload is then four layers and a projection of tanh of the first eight features.
-/
import proofs.«170059_j15375982920210_1_alg».proof.Proof.Gen.KernelIdeal.Skeleton
import proofs.«170059_j15375982920210_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen Cert.Qcl

/-! ## The pieces, at any instance -/

section Pieces
variable {F : FTy → Type} [FloatOps F]

/-- Column `j` of an [8, 3] array of angles, as a vector of 8. -/
def col (j : Nat) (h : S8x3.Slices ![0, j] S8x1) (r : FVec F S8x3 .f32) : FVec F S8 .f32 :=
  shapeCast S8 (extractStridedSlice S8x1 ![0, j] r h) shapeCasts_S8x1_S8

/-- A layer's scale from its [8, 3] angles: the product over the three columns of cos + sin. -/
def scale (r : FVec F S8x3 .f32) : FVec F S8 .f32 :=
  mulf (mulf (addf (cos (col 0 slices_S8x3_o0_0_S8x1 r)) (sin (col 0 slices_S8x3_o0_0_S8x1 r)))
      (addf (cos (col 1 slices_S8x3_o0_1_S8x1 r)) (sin (col 1 slices_S8x3_o0_1_S8x1 r))))
    (addf (cos (col 2 slices_S8x3_o0_2_S8x1 r)) (sin (col 2 slices_S8x3_o0_2_S8x1 r)))

/-- A vector of 8 laid over every row of a [8192, 8] block. -/
def rows8 (s : FVec F S8 .f32) : FVec F S8192x8 .f32 :=
  broadcastTo S8192x8 (shapeCast S1x8 s shapeCasts_S8_S1x8) broadcasts_S1x8_S8192x8

/-- A vector of 7 laid over every row of a [8192, 7] block. -/
def rows7 (s : FVec F S7 .f32) : FVec F S8192x7 .f32 :=
  broadcastTo S8192x7 (shapeCast S1x7 s shapeCasts_S7_S1x7) broadcasts_S1x7_S8192x7

/-- The neighbour mix of a state `z` through gates `g`: columns 0–6 are z[k]·(1 − g[k]) + z[k+1]·g[k], column 7 is
    z[7]. -/
def mix (z : FVec F S8192x8 .f32) (g : FVec F S7 .f32) : FVec F S8192x8 .f32 :=
  concatenate S8192x8 1
    [⟨S8192x7, addf
        (mulf (extractStridedSlice S8192x7 ![0, 0] z slices_S8192x8_o0_0_S8192x7)
          (rows7 (subf (broadcast S7 (Scalar.ofBits .f32 0x3F800000#32)) g)))
        (mulf (extractStridedSlice S8192x7 ![0, 1] z slices_S8192x8_o0_1_S8192x7) (rows7 g))⟩,
     ⟨S8192x1, extractStridedSlice S8192x1 ![0, 7] z slices_S8192x8_o0_7_S8192x1⟩]
    concatenates_S8192x7_S8192x1_S8192x8_d1

/-- Layer `l`'s angles: block `l` of the [4, 8, 3] parameter array, as [8, 3]. -/
def rotOf (l : Nat) (h : S4x8x3.Slices ![l, 0, 0] S1x8x3) (v4 : Vec F S4x8x3 .f32) : FVec F S8x3 .f32 :=
  shapeCast S8x3 (extractStridedSlice S1x8x3 ![l, 0, 0] v4 h) shapeCasts_S1x8x3_S8x3

/-- Layer `l`'s gates: the logistic of row `l` of the [4, 7] parameter array. -/
def gateOf (l : Nat) (h : S4x7.Slices ![l, 0] S1x7) (v5 : Vec F S4x7 .f32) : FVec F S7 .f32 :=
  logistic (shapeCast S7 (extractStridedSlice S1x7 ![l, 0] v5 h) shapeCasts_S1x7_S7)

/-- One layer on a block: scale the columns, then mix neighbours. -/
def step (q : FVec F S8192x8 .f32) (r : FVec F S8x3 .f32) (g : FVec F S7 .f32) : FVec F S8192x8 .f32 :=
  mix (mulf q (rows8 (scale r))) g

/-- The amplitudes a block starts from: tanh of its first eight columns. -/
def amp (v0 : Vec F S8192x64 .f32) : FVec F S8192x8 .f32 :=
  tanh (extractStridedSlice S8192x8 ![0, 0] (shapeCast S8192x64 v0 shapeCasts_S8192x64_S8192x64) slices_S8192x64_o0_0_S8192x8)

/-- The projection of a block of amplitudes: the product with the transposed weights, plus the bias on every row. -/
def proj (q : FVec F S8192x8 .f32) (v182 : Vec F S16x8 .f32) (v183 : Vec F S16 .f32) : FVec F S8192x16 .f32 :=
  addf (matmul dot_S8192x8_S16x8_S8192x16_1_1_0_0_n_n none (truncf .bf16 q bitsLt_bf16_f32) (truncf .bf16 v182 bitsLt_bf16_f32)
      (constant S8192x16 .f32 0x00000000#32))
    (broadcastTo S8192x16 (shapeCast S1x16 v183 shapeCasts_S16_S1x16) broadcasts_S1x16_S8192x16)

/-- The stored payload is the projection of four layers on the block's amplitudes. -/
theorem payload_eq (x0 : Vec F S8192x64 .f32) (x1 : Vec F S4x8x3 .f32) (x2 : Vec F S4x7 .f32) (x3 : Vec F S16x8 .f32)
    (x4 : Vec F S16 .f32) :
    k0_pay1 (k0_pay8 x1 x2 (k0_pay4 x2 (k0_pay2 x0 x1 x2) (k0_pay3 x1)) (k0_pay5 x1) (k0_pay6 x1) (k0_pay7 x1)) (k0_pay9 x2) x3 x4
      = proj
          (step
            (step
              (step
                (step (amp x0) (rotOf 0 slices_S4x8x3_o0_0_0_S1x8x3 x1) (gateOf 0 slices_S4x7_o0_0_S1x7 x2))
                (rotOf 1 slices_S4x8x3_o1_0_0_S1x8x3 x1) (gateOf 1 slices_S4x7_o1_0_S1x7 x2))
              (rotOf 2 slices_S4x8x3_o2_0_0_S1x8x3 x1) (gateOf 2 slices_S4x7_o2_0_S1x7 x2))
            (rotOf 3 slices_S4x8x3_o3_0_0_S1x8x3 x1) (gateOf 3 slices_S4x7_o3_0_S1x7 x2))
          x3 x4 := rfl

end Pieces

/-! ## Each piece read at an index, on the extended reals -/

section AtIdeal

theorem cos_at {s : Shape} (v : FVec Ideal s .f32) (i : s.Idx) : cos v i = Ideal.cos (v i) := rfl
theorem sin_at {s : Shape} (v : FVec Ideal s .f32) (i : s.Idx) : sin v i = Ideal.sin (v i) := rfl
theorem tanh_at {s : Shape} (v : FVec Ideal s .f32) (i : s.Idx) : tanh v i = Ideal.tanh (v i) := rfl
theorem logistic_at {s : Shape} (v : FVec Ideal s .f32) (i : s.Idx) : logistic v i = Ideal.logistic (v i) := rfl

/-- Column `j` at row `k` is the array's entry (k, j). -/
theorem col_apply (j : Nat) (h : S8x3.Slices ![0, j] S8x1) (r : FVec Ideal S8x3 .f32) (k : Fin 8) (c : Fin 3) (hc : c.val = j) :
    col j h r (ix1 k) = r (ix2 k c) := by
  unfold col
  refine (shapeCast_apply _ _ (ix1 k) (ix2 k (0 : Fin 1)) ?_).trans ?_
  · rw [Shape.rowMajor_val_two, Shape.rowMajor_val_one]
    show k.val * 1 + 0 = k.val
    omega
  · exact slice2_axis1_apply j r h k 0 c (by rw [hc]; rfl)

/-- The scale at amplitude `k`: the product over the three angles (k, 0), (k, 1), (k, 2) of cos + sin. -/
theorem scale_apply (r : FVec Ideal S8x3 .f32) (k : Fin 8) :
    scale r (ix1 k) = (Ideal.cos (r (ix2 k 0)) + Ideal.sin (r (ix2 k 0)))
      * (Ideal.cos (r (ix2 k 1)) + Ideal.sin (r (ix2 k 1)))
      * (Ideal.cos (r (ix2 k 2)) + Ideal.sin (r (ix2 k 2))) := by
  unfold scale
  simp only [mulf_apply, addf_apply, cos_at, sin_at, col_apply 0 _ r k 0 rfl, col_apply 1 _ r k 1 rfl, col_apply 2 _ r k 2 rfl]

theorem rows8_apply (s : FVec Ideal S8 .f32) (p : Fin 8192) (k : Fin 8) : rows8 s (ix2 p k) = s (ix1 k) := by
  unfold rows8
  rw [broadcastTo_1b_ab_apply, shapeCast_a_1a_apply]

theorem rows7_apply (s : FVec Ideal S7 .f32) (p : Fin 8192) (k : Fin 7) : rows7 s (ix2 p k) = s (ix1 k) := by
  unfold rows7
  rw [broadcastTo_1b_ab_apply, shapeCast_a_1a_apply]

/-- The mix at row `p` is the row specification's mix of row `p` of the state. -/
theorem mix_apply (z : FVec Ideal S8192x8 .f32) (g : FVec Ideal S7 .f32) (p : Fin 8192) (k : Fin 8) :
    mix z g (ix2 p k) = mixRow (fun k' => g (ix1 k')) (fun k' => z (ix2 p k')) k := by
  unfold mix mixRow
  split
  · rename_i hk
    refine (concatenate_pair_apply_left (t := S8192x8) (s₁ := S8192x7) (s₂ := S8192x1) (1 : Fin 2) _ _ _ (ix2 p k) rfl (ix2 p (⟨k.val, hk⟩ : Fin 7)) (fun b => by
      match b with
      | ⟨0, _⟩ => rfl
      | ⟨1, _⟩ => rfl)).trans ?_
    rw [addf_apply, mulf_apply, mulf_apply, rows7_apply, rows7_apply, subf_apply,
      slice2_axis1_apply 0 z _ p (⟨k.val, hk⟩ : Fin 7) k (by simp),
      slice2_axis1_apply 1 z _ p (⟨k.val, hk⟩ : Fin 7) (⟨k.val + 1, by omega⟩ : Fin 8) (by simp; omega)]
    rfl
  · rename_i hk
    refine (concatenate_pair_apply_right (t := S8192x8) (s₁ := S8192x7) (s₂ := S8192x1) (1 : Fin 2) _ _ _ (ix2 p k) rfl rfl (ix2 p (0 : Fin 1)) (fun b hb => by
      match b with
      | ⟨0, _⟩ => rfl
      | ⟨1, _⟩ => exact absurd rfl hb) (by
        show 0 + 7 = k.val
        omega)).trans ?_
    exact slice2_axis1_apply 7 z _ p (0 : Fin 1) k (by simp; omega)

/-- Layer `L`'s angles at (k, j) are the parameter array's entry (L, k, j). -/
theorem rotOf_apply (l : Nat) (h : S4x8x3.Slices ![l, 0, 0] S1x8x3) (v4 : Vec Ideal S4x8x3 .f32) (L : Fin 4) (hL : L.val = l)
    (k : Fin 8) (j : Fin 3) : rotOf l h v4 (ix2 k j) = v4 (ix3 L k j) := by
  unfold rotOf
  rw [shapeCast_1ab_ab_apply]
  exact extractStridedSlice_apply _ _ _ _ _ (fun ax => by
    match ax with
    | ⟨0, _⟩ => show L.val = l + 0; omega
    | ⟨1, _⟩ => exact (Nat.zero_add _).symm
    | ⟨2, _⟩ => exact (Nat.zero_add _).symm)

/-- Layer `L`'s gate `k` is the logistic of the parameter array's entry (L, k). -/
theorem gateOf_apply (l : Nat) (h : S4x7.Slices ![l, 0] S1x7) (v5 : Vec Ideal S4x7 .f32) (L : Fin 4) (hL : L.val = l) (k : Fin 7) :
    gateOf l h v5 (ix1 k) = Ideal.logistic (v5 (ix2 L k)) := by
  unfold gateOf
  rw [logistic_at, shapeCast_1a_a_apply, slice2_axis0_apply l v5 h (0 : Fin 1) k L (by rw [hL]; rfl)]

/-- The starting amplitude `k` of row `p` is tanh of the row's feature `k`. -/
theorem amp_apply (v0 : Vec Ideal S8192x64 .f32) (p : Fin 8192) (k : Fin 8) :
    amp v0 (ix2 p k) = Ideal.tanh (v0 (ix2 p (feat k))) := by
  unfold amp
  rw [tanh_at, slice2_axis1_apply 0 _ _ p k (feat k) (by simp [feat]), shapeCast_self]

end AtIdeal

/-! ## A layer and the projection, at a row -/

section Rows

/-- One layer on a block, at row `p`: the row specification's layer `L` on row `p` of the state. -/
theorem step_apply (q : FVec Ideal S8192x8 .f32) (l : Nat) (hr : S4x8x3.Slices ![l, 0, 0] S1x8x3) (hg : S4x7.Slices ![l, 0] S1x7)
    (x1 : Vec Ideal S4x8x3 .f32) (x2 : Vec Ideal S4x7 .f32) (L : Fin 4) (hL : L.val = l) (p : Fin 8192) (k : Fin 8) :
    step q (rotOf l hr x1) (gateOf l hg x2) (ix2 p k) = layer x1 x2 L (fun k' => q (ix2 p k')) k := by
  have hgate : (fun k' => gateOf l hg x2 (ix1 k')) = gate x2 L := funext fun k' => gateOf_apply l hg x2 L hL k'
  have hz : (fun k' => (mulf q (rows8 (scale (rotOf l hr x1)))) (ix2 p k')) = fun k' => q (ix2 p k') * scl x1 L k' :=
    funext fun k' => by
      rw [mulf_apply, rows8_apply, scale_apply, rotOf_apply l hr x1 L hL k' 0, rotOf_apply l hr x1 L hL k' 1,
        rotOf_apply l hr x1 L hL k' 2]
      rfl
  unfold step layer
  rw [mix_apply, hgate, hz]

/-- The left operand of the product at output (p, o) and contraction position k is the state's entry (p, k). -/
theorem lhs_at (p : Fin 8192) (o : Fin 16) (k : Fin 8) :
    dot_S8192x8_S16x8_S8192x16_1_1_0_0_n_n.lhsIdx (ix2 p o) ((contrEquiv1 dot_S8192x8_S16x8_S8192x16_1_1_0_0_n_n 8 rfl rfl).symm k)
      = ix2 p k := by
  funext a
  apply Fin.ext
  match a with
  | ⟨0, _⟩ => rfl
  | ⟨1, _⟩ =>
    exact (dot_S8192x8_S16x8_S8192x16_1_1_0_0_n_n.lhsIdx_val_of_single (cl := (1 : Fin 2)) rfl _ _).trans
      (contrEquiv1_symm_val dot_S8192x8_S16x8_S8192x16_1_1_0_0_n_n 8 rfl rfl k)

/-- The right operand there is the weight's entry (o, k): the product contracts the weights' second axis. -/
theorem rhs_at (p : Fin 8192) (o : Fin 16) (k : Fin 8) :
    dot_S8192x8_S16x8_S8192x16_1_1_0_0_n_n.rhsIdx (ix2 p o) ((contrEquiv1 dot_S8192x8_S16x8_S8192x16_1_1_0_0_n_n 8 rfl rfl).symm k)
      = ix2 o k := by
  funext a
  apply Fin.ext
  match a with
  | ⟨0, _⟩ => rfl
  | ⟨1, _⟩ =>
    exact (dot_S8192x8_S16x8_S8192x16_1_1_0_0_n_n.rhsIdx_val_of_single (cr := (1 : Fin 2)) rfl _ _).trans
      (contrEquiv1_symm_val dot_S8192x8_S16x8_S8192x16_1_1_0_0_n_n 8 rfl rfl k)

/-- The projection at (p, o): Σ_k q[p, k]·w[o, k] + b[o]. A change of float format is the identity on the extended
    reals, and a product accumulated into zero is the plain sum. -/
theorem proj_apply (q : FVec Ideal S8192x8 .f32) (w : Vec Ideal S16x8 .f32) (b : Vec Ideal S16 .f32) (p : Fin 8192) (o : Fin 16) :
    proj q w b (ix2 p o) = project w b (fun k => q (ix2 p k)) o := by
  unfold proj project
  rw [addf_apply, broadcastTo_1b_ab_apply, shapeCast_a_1a_apply]
  refine congrArg (· + b (ix1 o)) ?_
  simp only [matmul]
  rw [Ideal.matmul_constant_zero_apply, ← Equiv.sum_comp (contrEquiv1 dot_S8192x8_S16x8_S8192x16_1_1_0_0_n_n 8 rfl rfl).symm]
  refine Finset.sum_congr rfl fun k _ => ?_
  rw [truncf_apply, truncf_apply, lhs_at, rhs_at]

/-- The stored payload at (p, o) is the row specification on row `p` of the input block. -/
theorem payload_apply (x0 : Vec Ideal S8192x64 .f32) (x1 : Vec Ideal S4x8x3 .f32) (x2 : Vec Ideal S4x7 .f32)
    (x3 : Vec Ideal S16x8 .f32) (x4 : Vec Ideal S16 .f32) (p : Fin 8192) (o : Fin 16) :
    k0_pay1 (k0_pay8 x1 x2 (k0_pay4 x2 (k0_pay2 x0 x1 x2) (k0_pay3 x1)) (k0_pay5 x1) (k0_pay6 x1) (k0_pay7 x1)) (k0_pay9 x2) x3 x4 (ix2 p o)
      = project x3 x4 (layers x1 x2 (fun k => Ideal.tanh (x0 (ix2 p (feat k))))) o := by
  rw [payload_eq, proj_apply]
  have h3 := fun q => funext (step_apply q 3 slices_S4x8x3_o3_0_0_S1x8x3 slices_S4x7_o3_0_S1x7 x1 x2 3 rfl p)
  have h2 := fun q => funext (step_apply q 2 slices_S4x8x3_o2_0_0_S1x8x3 slices_S4x7_o2_0_S1x7 x1 x2 2 rfl p)
  have h1 := fun q => funext (step_apply q 1 slices_S4x8x3_o1_0_0_S1x8x3 slices_S4x7_o1_0_S1x7 x1 x2 1 rfl p)
  have h0 := fun q => funext (step_apply q 0 slices_S4x8x3_o0_0_0_S1x8x3 slices_S4x7_o0_0_S1x7 x1 x2 0 rfl p)
  have ha : (fun k => amp x0 (ix2 p k)) = fun k => Ideal.tanh (x0 (ix2 p (feat k))) := funext (amp_apply x0 p)
  rw [h3, h2, h1, h0, ha]
  rfl

end Rows

end Cert.KernelIdeal.Row

end
-- ==== Proof.KernelArray.lean ====
/-
  From blocks to the whole array.

  The region runs the body on 64 grid points. Point t sees rows 8192·t … 8192·t + 8191 of the flattened input
  ([524288, 64]) and the four parameter arrays whole, and writes rows 8192·t … of the flattened output
  ([524288, 16]). Since the body's value at a row depends on that row of the input only, what point t writes
  back is block t of one function of the whole arrays — the row specification over the flattened layout —, and
  the 64 blocks tile the output, so the output array ends as that function.

  Around the region the program only re-lays arrays: the input [64, 8192, 64] is flattened to [524288, 64]
  before it and the output [524288, 16] is unflattened to [64, 8192, 16] after it; row (b, s) is flat row
  8192·b + s in both. Reading the result through these casts gives the row specification over the original
  layout.
-/
import proofs.«170059_j15375982920210_1_alg».proof.Proof.Gen.KernelIdeal.Frame
import proofs.«170059_j15375982920210_1_alg».proof.Proof.KernelRow
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.Qcl
open Idealize.ShloMosaic.Pipeline (Dat Cfg Window)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the input's and the output's row block is the grid point, every other
    block index is 0. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The flattened input as the region finds it: the argument, re-laid. -/
theorem V_main_v0 (c : Dev nD) :
    (V m c main_v0 : S524288x64.Idx → EReal)
      = shapeCast S524288x64 (m ((c : Thread nD τ).loc main_arg0)) shapeCasts_S64x8192x64_S524288x64 := by
  show StableHlo.after hostOps0 (fun b => m (c, b)) (Proc.devRef .tc main_v0) = _
  after_results
  rfl

/-- The output array's function of the arrays the region finds: the row specification over flat rows. -/
abbrev Gflat (c : Dev nD) : S524288x16.Idx → EReal :=
  resultFlat (V m c main_v0) (V m c main_arg1) (V m c main_arg2) (V m c main_arg3) (V m c main_arg4)

/-- A parameter window's block at any point is its whole array. -/
theorem blk1 (c : Dev nD) (t : Fin cfg0.N) : (iblk m c 1 t : S4x8x3.Idx → EReal) = V m c main_arg1 := by
  obtain ⟨-, -, e0, e1, e2, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 3) * 4 + 1 * (y 0).val = (y 0).val; omega
  | ⟨1, _⟩ => show win0_1.index t (1 : Fin 3) * 8 + 1 * (y 1).val = (y 1).val; omega
  | ⟨2, _⟩ => show win0_1.index t (2 : Fin 3) * 3 + 1 * (y 2).val = (y 2).val; omega

theorem blk2 (c : Dev nD) (t : Fin cfg0.N) : (iblk m c 2 t : S4x7.Idx → EReal) = V m c main_arg2 := by
  obtain ⟨-, -, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 4 + 1 * (y 0).val = (y 0).val; omega
  | ⟨1, _⟩ => show win0_2.index t (1 : Fin 2) * 7 + 1 * (y 1).val = (y 1).val; omega

theorem blk3 (c : Dev nD) (t : Fin cfg0.N) : (iblk m c 3 t : S16x8.Idx → EReal) = V m c main_arg3 := by
  obtain ⟨-, -, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 16 + 1 * (y 0).val = (y 0).val; omega
  | ⟨1, _⟩ => show win0_3.index t (1 : Fin 2) * 8 + 1 * (y 1).val = (y 1).val; omega

theorem blk4 (c : Dev nD) (t : Fin cfg0.N) : (iblk m c 4 t : S16.Idx → EReal) = V m c main_arg4 := by
  obtain ⟨-, -, -, -, -, -, -, -, -, e0, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 1) * 16 + 1 * (y 0).val = (y 0).val; omega

/-- Row p of the input block at point t is flat row 8192·t + p of the flattened input. -/
theorem blk0 (c : Dev nD) (t : Fin cfg0.N) (p : Fin 8192) (f : Fin 64) (r : Fin 524288) (hr : r.val = t.val * 8192 + p.val) :
    (iblk m c 0 t : S8192x64.Idx → EReal) (ix2 p f) = V m c main_v0 (ix2 r f) := by
  obtain ⟨e0, e1, -⟩ := idx_facts t
  show V m c main_v0 (((cfg0.win 0).blk t).view.emb (ix2 p f)) = V m c main_v0 (ix2 r f)
  refine congrArg _ (funext fun a => Fin.ext ?_)
  match a with
  | ⟨0, _⟩ => show win0_0.index t (0 : Fin 2) * 8192 + 1 * p.val = r.val; omega
  | ⟨1, _⟩ => show win0_0.index t (1 : Fin 2) * 64 + 1 * f.val = f.val; omega

/-- WHAT POINT t WRITES BACK is block t of the flat row specification of the arrays the region finds. -/
theorem flushed_eq (c : Dev nD) (t : Fin cfg0.N) :
    (dats m 0 c).flushed 5 t = ((cfg0.win 5).blk t).view.read (Elt Ideal) (Gflat m c) := by
  show (cfg0.win 5).cut (grid0.coords t) ((dats m 0 c).after 5 t) = _
  rw [after0_5]
  unfold out0_5
  rw [View.canon_unit_zero hz2]
  simp only [View.ld_unit_zero (S := S8192x64) hz2, View.ld_unit_zero (S := S4x8x3) hz3, View.ld_unit_zero (S := S4x7) hz2,
    View.ld_unit_zero (S := S16x8) hz2, View.ld_unit_zero (S := S16) hz1]
  obtain ⟨-, -, -, -, -, -, -, -, -, -, e50, e51⟩ := idx_facts t
  funext j
  obtain ⟨p, o, rfl⟩ : ∃ (p : Fin 8192) (o : Fin 16), j = ix2 p o := ⟨j 0, j 1, eq_ix2 j⟩
  refine (Row.payload_apply (iblk m c 0 t) (iblk m c 1 t) (iblk m c 2 t) (iblk m c 3 t) (iblk m c 4 t) p o).trans ?_
  rw [blk1, blk2, blk3, blk4]
  show _ = Gflat m c (((cfg0.win 5).blk t).view.emb (ix2 p o))
  have hrow : ((((cfg0.win 5).blk t).view.emb (ix2 p o)) 0).val = t.val * 8192 + p.val := by
    show win0_5.index t (0 : Fin 2) * 8192 + 1 * p.val = _
    omega
  have hcol : (((cfg0.win 5).blk t).view.emb (ix2 p o)) 1 = o := by
    apply Fin.ext
    show win0_5.index t (1 : Fin 2) * 16 + 1 * o.val = _
    omega
  unfold Gflat resultFlat
  rw [hcol]
  refine congrArg (fun q => project _ _ (layers _ _ q) o) (funext fun k => ?_)
  exact congrArg Ideal.tanh (blk0 m c t p (feat k) _ hrow)

/-- An index of the output array is in point t's block iff each coordinate is in the block's range. -/
theorem mem_blk5 (t : Fin cfg0.N) (i : S524288x16.Idx) :
    i ∈ ((cfg0.win 5).blk t).view.set ↔ ∀ a : Fin 2, win0_5.index t a * S8192x16.size a ≤ (i a).val
      ∧ (i a).val < win0_5.index t a * S8192x16.size a + S8192x16.size a := by
  show i ∈ ((View.whole main_v1).slice (win0_5.rect t)).set ↔ _
  rw [View.set_slice_whole, Rect.mem_set_unit]
  exact Iff.rfl

/-- Every row block of the output is some grid point's. -/
theorem idx_onto : ∀ q : Fin 64, ∃ t : Fin cfg0.N, win0_5.index t = ![q.val, 0] :=
  (by decide +kernel : ∀ q : Fin 64, ∃ t : Fin grid0.N, win0_5.index t = ![q.val, 0])

/-- The 64 blocks tile the output: flat row r lies in the block of point r / 8192. -/
theorem cover5 (i : S524288x16.Idx) : ∃ t : Fin cfg0.N, (cfg0.win 5).flush t = true ∧ i ∈ ((cfg0.win 5).blk t).view.set := by
  have hi0 : (i 0).val < 524288 := (i 0).isLt
  have hi1 : (i 1).val < 16 := (i 1).isLt
  obtain ⟨t, ht⟩ := idx_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 16 ≤ (i 1).val ∧ (i 1).val < win0_5.index t (1 : Fin 2) * 16 + 16; omega

/-- THE OUTPUT ARRAY after the region: the flat row specification. -/
theorem final5 (c : Dev nD) : (dats m 0 c).arrAt 5 cfg0.N = Gflat m c :=
  (dats m 0 c).arrAt_eq_of_cover 5 (Gflat m c) (fun t _ => flushed_eq m c t) cover5

/-! ## The result, through the casts around the region -/

/-- THE RESULT: the output array un-flattened is the row specification over the arguments in their own layout.
    Flat row 8192·b + s of the output is row (b, s) of the result, and the same flat row of the flattened input is
    row (b, s) of the input argument. -/
theorem tail_eq (c : Dev nD) :
    (Pipeline.afterTail₀ cfgs (dats m) 0 (V0 m) [hostOps1] c main_v2 : S64x8192x16.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v2) = _
  after_results
  funext i
  obtain ⟨b, s, o, rfl⟩ : ∃ (b : Fin 64) (s : Fin 8192) (o : Fin 16), i = ix3 b s o := ⟨i 0, i 1, i 2, eq_ix3 i⟩
  have hr : b.val * 8192 + s.val < 524288 := by have := b.isLt; have := s.isLt; omega
  have hw := Pipeline.withArrays_arr spec0 launch0.win.arr_inj c (V0 m c) (fun w => (dats m 0 c).arrAt w cfg0.N) 5
  show shapeCast S64x8192x16 (Pipeline.withArrays spec0 c (V0 m c) (fun w => (dats m 0 c).arrAt w cfg0.N) (Proc.devRef .tc main_v1))
    shapeCasts_S524288x16_S64x8192x16 (ix3 b s o) = _
  refine (shapeCast_apply _ _ (ix3 b s o) (ix2 (⟨b.val * 8192 + s.val, hr⟩ : Fin 524288) o) ?_).trans ?_
  · rw [Shape.rowMajor_val_two, Shape.rowMajor_val_three]
    rfl
  · refine (congrFun (hw.trans (final5 m c)) _).trans ?_
    unfold Gflat resultFlat result
    rw [V_main_arg1, V_main_arg2, V_main_arg3, V_main_arg4, V_main_v0]
    refine congrArg (fun q => project _ _ (layers _ _ q) o) (funext fun k => ?_)
    refine congrArg Ideal.tanh ?_
    refine shapeCast_apply _ _ _ (ix3 b s (feat k)) ?_
    rw [Shape.rowMajor_val_three, Shape.rowMajor_val_two]
    rfl

/-! ## The run, read -/

/-- The frame run re-posted: the result at the row specification of the arguments, the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c))),
       ((h c).1 4).trans (((dats m 0 c).arrAt_in 4 rfl _).trans ((A_eq m c 4).trans (V_main_arg4 m c)))⟩)
    (run_main m ρ)

end Cert.KernelIdeal.Arr

end
-- ==== Proof.RefValue.lean ====
/-
  The reference program's result, read index by index, is the row-by-row specification.

  The program keeps a state of shape [64, 8192, 8]. It starts at tanh of the first eight features times layer 0's
  scale; each later state is the neighbour mix of the previous one (through that layer's gates) times the next layer's
  scale; the result is the product of the last mix with the weights, plus the bias. Each of these pieces is spelled
  once below as a function of its operands, read at an index given by coordinates, and the four layers are chained.
-/
import proofs.«170059_j15375982920210_1_alg».proof.Proof.Gen.ReferenceIdeal.Run
import proofs.«170059_j15375982920210_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.Qcl.Ref

open Cert.ReferenceIdeal Cert.ReferenceIdeal.Gen Cert.ReferenceIdeal.Value Idealize.ShloMosaic Idealize.ShloMosaic.ValueIdx
  Idealize.ShloMosaic.StableHlo

/-! ## The pieces, spelled once for any float values -/

section Blocks
variable {F : FTy → Type} [FloatOps F]

/-- Column `j` of an [8, 3] array as a vector of 8, given the evidence of the cut. -/
def col (r : FVec F S8x3 .f32) (j : Nat) (h : S8x3.Slices ![0, j] S8x1) : FVec F S8 .f32 :=
  shapeCast _ (extractStridedSlice S8x1 ![0, j] r h) shapeCasts_S8x1_S8

/-- The per-amplitude scale of a layer from its [8, 3] angles: the product over the three columns of cos + sin. -/
def scaleB (r : FVec F S8x3 .f32) : FVec F S8 .f32 :=
  mulf (mulf (addf (Host.cos (col r 0 slices_S8x3_S8x1_0_0)) (Host.sin (col r 0 slices_S8x3_S8x1_0_0)))
      (addf (Host.cos (col r 1 slices_S8x3_S8x1_0_1)) (Host.sin (col r 1 slices_S8x3_S8x1_0_1))))
    (addf (Host.cos (col r 2 slices_S8x3_S8x1_0_2)) (Host.sin (col r 2 slices_S8x3_S8x1_0_2)))

/-- A vector of 8 repeated over every row of the state. -/
def rep8 (v : FVec F S8 .f32) : FVec F S64x8192x8 .f32 :=
  broadcastInDim S64x8192x8 ![0, 1, 2] bcast_S1x1x8_S64x8192x8_0_1_2 (broadcastInDim S1x1x8 ![2] bcast_S8_S1x1x8_2 v)

/-- A vector of 7 repeated over every row. -/
def rep7 (v : FVec F S7 .f32) : FVec F S64x8192x7 .f32 :=
  broadcastInDim S64x8192x7 ![0, 1, 2] bcast_S1x1x7_S64x8192x7_0_1_2 (broadcastInDim S1x1x7 ![2] bcast_S7_S1x1x7_2 v)

/-- The constant 1 as a vector of 7. -/
def ones7 : FVec F S7 .f32 := broadcastInDim S7 ![] bcast_S_S7 (constant S_ .f32 0x3F800000#32)

/-- Block `l` of the [4, 8, 3] angles as an [8, 3] array. -/
def rotB (R : FVec F S4x8x3 .f32) (l : Nat) (h : S4x8x3.Slices ![l, 0, 0] S1x8x3) : FVec F S8x3 .f32 :=
  shapeCast _ (extractStridedSlice S1x8x3 ![l, 0, 0] R h) shapeCasts_S1x8x3_S8x3

/-- Row `l` of the [4, 7] gate parameters as a vector of 7. -/
def entB (E : FVec F S4x7 .f32) (l : Nat) (h : S4x7.Slices ![l, 0] S1x7) : FVec F S7 .f32 :=
  shapeCast _ (extractStridedSlice S1x7 ![l, 0] E h) shapeCasts_S1x7_S7

/-- The gates of a layer from its parameters: 1 / (1 + e^(−x)). -/
def gateB (e : FVec F S7 .f32) : FVec F S7 .f32 :=
  Host.divf ones7 (addf ones7 (Host.exp (Host.negf e)))

/-- The neighbour mix of a state through a layer's gates: the last amplitude passes through. -/
def mixB (z : FVec F S64x8192x8 .f32) (g : FVec F S7 .f32) : FVec F S64x8192x8 .f32 :=
  concatenate S64x8192x8 2
    [⟨S64x8192x7, (addf (mulf (extractStridedSlice S64x8192x7 ![0, 0, 0] z slices_S64x8192x8_S64x8192x7_0_0_0) (rep7 (subf ones7 g)))
        (mulf (extractStridedSlice S64x8192x7 ![0, 0, 1] z slices_S64x8192x8_S64x8192x7_0_0_1) (rep7 g)))⟩,
      ⟨S64x8192x1, (extractStridedSlice S64x8192x1 ![0, 0, 7] z slices_S64x8192x8_S64x8192x1_0_0_7)⟩]
    concatenates_S64x8192x7_S64x8192x1_S64x8192x8_d2

/-- The state after a mix, scaled for the next layer. -/
def stepB (z : FVec F S64x8192x8 .f32) (g : FVec F S7 .f32) (r : FVec F S8x3 .f32) : FVec F S64x8192x8 .f32 :=
  mulf (mixB z g) (rep8 (scaleB r))

/-- The first state: tanh of the first eight features, scaled for layer 0. -/
def startB (X : FVec F S64x8192x64 .f32) (r : FVec F S8x3 .f32) : FVec F S64x8192x8 .f32 :=
  mulf (Host.tanh (extractStridedSlice S64x8192x8 ![0, 0, 0] X slices_S64x8192x64_S64x8192x8_0_0_0)) (rep8 (scaleB r))

/-- The projection of the last mix: its product with the weights plus the bias repeated over every row. -/
def projB (m : FVec F S64x8192x8 .f32) (W : FVec F S16x8 .f32) (B : FVec F S16 .f32) : FVec F S64x8192x16 .f32 :=
  addf (Host.dotGeneral dot_S64x8192x8_S16x8_S64x8192x16_2_1_01_0_n_n none m W)
    (broadcastInDim S64x8192x16 ![0, 1, 2] bcast_S1x1x16_S64x8192x16_0_1_2 (broadcastInDim S1x1x16 ![2] bcast_S16_S1x1x16_2 B))

/-! The program's named sub-terms are these pieces of the arguments (by unfolding). -/

variable (V0 : Valuation τ sig (Elt F))

theorem v3_eq : res_main_v3 V0 = rotB (V0 (Proc.devRef .tc main_arg1)) 0 slices_S4x8x3_S1x8x3_0_0_0 := rfl
theorem v52_eq : res_main_v52 V0 = rotB (V0 (Proc.devRef .tc main_arg1)) 1 slices_S4x8x3_S1x8x3_1_0_0 := rfl
theorem v101_eq : res_main_v101 V0 = rotB (V0 (Proc.devRef .tc main_arg1)) 2 slices_S4x8x3_S1x8x3_2_0_0 := rfl
theorem v150_eq : res_main_v150 V0 = rotB (V0 (Proc.devRef .tc main_arg1)) 3 slices_S4x8x3_S1x8x3_3_0_0 := rfl
theorem v37_eq : res_main_v37 V0 = gateB (entB (V0 (Proc.devRef .tc main_arg2)) 0 slices_S4x7_S1x7_0_0) := rfl
theorem v86_eq : res_main_v86 V0 = gateB (entB (V0 (Proc.devRef .tc main_arg2)) 1 slices_S4x7_S1x7_1_0) := rfl
theorem v135_eq : res_main_v135 V0 = gateB (entB (V0 (Proc.devRef .tc main_arg2)) 2 slices_S4x7_S1x7_2_0) := rfl
theorem v184_eq : res_main_v184 V0 = gateB (entB (V0 (Proc.devRef .tc main_arg2)) 3 slices_S4x7_S1x7_3_0) := rfl
theorem v29_eq : res_main_v29 V0 = startB (V0 (Proc.devRef .tc main_arg0)) (res_main_v3 V0) := rfl
theorem v78_eq : res_main_v78 V0 = stepB (res_main_v29 V0) (res_main_v37 V0) (res_main_v52 V0) := rfl
theorem v127_eq : res_main_v127 V0 = stepB (res_main_v78 V0) (res_main_v86 V0) (res_main_v101 V0) := rfl
theorem v176_eq : res_main_v176 V0 = stepB (res_main_v127 V0) (res_main_v135 V0) (res_main_v150 V0) := rfl
theorem v201_eq : val4 V0 (Proc.devRef .tc main_v201)
    = projB (mixB (res_main_v176 V0) (res_main_v184 V0)) (V0 (Proc.devRef .tc main_arg3)) (V0 (Proc.devRef .tc main_arg4)) :=
  val4_main_v201 V0

end Blocks

/-! ## The pieces read at an index, on the extended reals -/

section AtIdeal

/-- A rank-3 array cut along its last axis from `o` reads, at `(a, c, j)`, the source at `(a, c, k)` with `k = o + j`. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (c : Fin n1) (j : Fin m) (k : Fin n2) (hk : k.val = o + j.val) :
    extractStridedSlice ⟨3, ![n0, n1, m]⟩ ![0, 0, o] X h (ix3 a c j) = X (ix3 a c k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Column `j` at row `k` is the array's entry `(k, j)`. -/
theorem col_apply (r : FVec Ideal S8x3 .f32) (j : Nat) (hj : j < 3) (h : S8x3.Slices ![0, j] S8x1) (k : Fin 8) :
    col r j h (ix1 k) = r (ix2 k ⟨j, hj⟩) := by
  unfold col
  refine (shapeCast_apply _ _ (ix1 k) (ix2 k (0 : Fin 1)) ?_).trans ?_
  · rw [Shape.rowMajor_val_two, Shape.rowMajor_val_one]
    show k.val * 1 + 0 = k.val
    omega
  · exact slice2_axis1_apply j r h k (0 : Fin 1) ⟨j, hj⟩ rfl

/-- The scale of amplitude `k`: the product over the three angles of cos + sin. -/
theorem scaleB_apply (r : FVec Ideal S8x3 .f32) (k : Fin 8) :
    scaleB r (ix1 k) = (Ideal.cos (r (ix2 k 0)) + Ideal.sin (r (ix2 k 0)))
      * (Ideal.cos (r (ix2 k 1)) + Ideal.sin (r (ix2 k 1))) * (Ideal.cos (r (ix2 k 2)) + Ideal.sin (r (ix2 k 2))) := by
  show (Ideal.cos (col r 0 slices_S8x3_S8x1_0_0 (ix1 k)) + Ideal.sin (col r 0 slices_S8x3_S8x1_0_0 (ix1 k)))
      * (Ideal.cos (col r 1 slices_S8x3_S8x1_0_1 (ix1 k)) + Ideal.sin (col r 1 slices_S8x3_S8x1_0_1 (ix1 k)))
      * (Ideal.cos (col r 2 slices_S8x3_S8x1_0_2 (ix1 k)) + Ideal.sin (col r 2 slices_S8x3_S8x1_0_2 (ix1 k))) = _
  rw [col_apply r 0 (by omega) _ k, col_apply r 1 (by omega) _ k, col_apply r 2 (by omega) _ k]
  rfl

/-- A vector of 8 repeated over the rows reads, at `(b, s, k)`, its entry `k`. -/
theorem rep8_apply (v : FVec Ideal S8 .f32) (b : Fin 64) (s : Fin 8192) (k : Fin 8) : rep8 v (ix3 b s k) = v (ix1 k) := by
  unfold rep8
  refine (broadcastInDim_apply _ _ _ (ix3 b s k) (ix3 (0 : Fin 1) (0 : Fin 1) k) fun a => ?_).trans ?_
  · match a with
    | ⟨0, _⟩ => rfl
    | ⟨1, _⟩ => rfl
    | ⟨2, _⟩ => rfl
  · refine broadcastInDim_apply _ _ _ _ (ix1 k) fun a => ?_
    match a with
    | ⟨0, _⟩ => rfl

/-- A vector of 7 repeated over the rows reads, at `(b, s, k)`, its entry `k`. -/
theorem rep7_apply (v : FVec Ideal S7 .f32) (b : Fin 64) (s : Fin 8192) (k : Fin 7) : rep7 v (ix3 b s k) = v (ix1 k) := by
  unfold rep7
  refine (broadcastInDim_apply _ _ _ (ix3 b s k) (ix3 (0 : Fin 1) (0 : Fin 1) k) fun a => ?_).trans ?_
  · match a with
    | ⟨0, _⟩ => rfl
    | ⟨1, _⟩ => rfl
    | ⟨2, _⟩ => rfl
  · refine broadcastInDim_apply _ _ _ _ (ix1 k) fun a => ?_
    match a with
    | ⟨0, _⟩ => rfl

/-- The constant vector reads the f32 pattern of 1 everywhere. -/
theorem ones7_apply (k : Fin 7) : ones7 (F := Ideal) (ix1 k) = Cert.Qcl.one32 := by
  unfold ones7
  exact broadcastInDim_apply _ _ _ (ix1 k) ix0 fun a => a.elim0

/-- Block `l` of the angles at `(k, j)` is the array's entry `(l, k, j)`. -/
theorem rotB_apply (R : FVec Ideal S4x8x3 .f32) (l : Nat) (hl : l < 4) (h : S4x8x3.Slices ![l, 0, 0] S1x8x3) (k : Fin 8) (j : Fin 3) :
    rotB R l h (ix2 k j) = R (ix3 ⟨l, hl⟩ k j) := by
  unfold rotB
  refine (shapeCast_1ab_ab_apply _ _ k j).trans ?_
  exact extractStridedSlice_apply _ _ _ _ (ix3 ⟨l, hl⟩ k j) fun a => by
    match a with
    | ⟨0, _⟩ => rfl
    | ⟨1, _⟩ => exact (Nat.zero_add _).symm
    | ⟨2, _⟩ => exact (Nat.zero_add _).symm

/-- Row `l` of the gate parameters at `k` is the array's entry `(l, k)`. -/
theorem entB_apply (E : FVec Ideal S4x7 .f32) (l : Nat) (hl : l < 4) (h : S4x7.Slices ![l, 0] S1x7) (k : Fin 7) :
    entB E l h (ix1 k) = E (ix2 ⟨l, hl⟩ k) := by
  unfold entB
  refine (shapeCast_1a_a_apply _ _ k).trans ?_
  exact slice2_axis0_apply l E h (0 : Fin 1) k ⟨l, hl⟩ rfl

/-- The gate at `k` is the logistic of the parameter. -/
theorem gateB_apply (e : FVec Ideal S7 .f32) (k : Fin 7) : gateB e (ix1 k) = Ideal.logistic (e (ix1 k)) := by
  show Ideal.div (ones7 (F := Ideal) (ix1 k)) (ones7 (F := Ideal) (ix1 k) + Ideal.exp (-(e (ix1 k)))) = _
  rw [ones7_apply]
  exact Cert.Qcl.logistic_expanded _

end AtIdeal

section AtIdeal2

/-- The mix of a state at `(b, s, k)` is the row mix of that row through the gates. -/
theorem mixB_apply (z : FVec Ideal S64x8192x8 .f32) (g : FVec Ideal S7 .f32) (b : Fin 64) (s : Fin 8192) (k : Fin 8) :
    mixB z g (ix3 b s k) = Cert.Qcl.mixRow (fun k' => g (ix1 k')) (fun k' => z (ix3 b s k')) k := by
  unfold mixB Cert.Qcl.mixRow
  by_cases h : k.val < 7
  · -- among the first seven: the first piece, at the same coordinates
    rw [dif_pos h]
    refine (concatenate_pair_apply_left (t := S64x8192x8) (s₁ := S64x8192x7) (s₂ := S64x8192x1) _ _ _ _ (ix3 b s k) rfl (ix3 b s (⟨k.val, h⟩ : Fin 7)) fun a => ?_).trans ?_
    · match a with
      | ⟨0, _⟩ => rfl
      | ⟨1, _⟩ => rfl
      | ⟨2, _⟩ => rfl
    · show extractStridedSlice S64x8192x7 ![0, 0, 0] z slices_S64x8192x8_S64x8192x7_0_0_0 (ix3 b s (⟨k.val, h⟩ : Fin 7))
            * rep7 (subf ones7 g) (ix3 b s (⟨k.val, h⟩ : Fin 7))
          + extractStridedSlice S64x8192x7 ![0, 0, 1] z slices_S64x8192x8_S64x8192x7_0_0_1 (ix3 b s (⟨k.val, h⟩ : Fin 7))
            * rep7 g (ix3 b s (⟨k.val, h⟩ : Fin 7)) = _
      rw [rep7_apply, rep7_apply,
        slice3_axis2_apply 0 z slices_S64x8192x8_S64x8192x7_0_0_0 b s (⟨k.val, h⟩ : Fin 7) k (Nat.zero_add _).symm,
        slice3_axis2_apply 1 z slices_S64x8192x8_S64x8192x7_0_0_1 b s (⟨k.val, h⟩ : Fin 7) (⟨k.val + 1, by omega⟩ : Fin 8)
          (Nat.add_comm _ _)]
      show z (ix3 b s k) * (ones7 (F := Ideal) (ix1 (⟨k.val, h⟩ : Fin 7)) - g (ix1 (⟨k.val, h⟩ : Fin 7))) + _ = _
      rw [ones7_apply]
  · -- the last amplitude: the second piece, at its one position
    rw [dif_neg h]
    have h7 : k.val = 7 := by have := k.isLt; omega
    refine (concatenate_pair_apply_right (t := S64x8192x8) (s₁ := S64x8192x7) (s₂ := S64x8192x1) _ _ _ _ (ix3 b s k) rfl rfl (ix3 b s (0 : Fin 1)) (fun a ha => ?_) ?_).trans ?_
    · match a with
      | ⟨0, _⟩ => rfl
      | ⟨1, _⟩ => rfl
      | ⟨2, _⟩ => exact absurd rfl ha
    · show 0 + 7 = k.val
      omega
    · exact slice3_axis2_apply 7 z slices_S64x8192x8_S64x8192x1_0_0_7 b s (0 : Fin 1) k h7

/-- The first state at `(b, s, k)`: tanh of feature `k` of the row, times the scale. -/
theorem startB_apply (X : FVec Ideal S64x8192x64 .f32) (r : FVec Ideal S8x3 .f32) (b : Fin 64) (s : Fin 8192) (k : Fin 8) :
    startB X r (ix3 b s k) = Ideal.tanh (X (ix3 b s (Cert.Qcl.feat k))) * scaleB r (ix1 k) := by
  show Ideal.tanh (extractStridedSlice S64x8192x8 ![0, 0, 0] X slices_S64x8192x64_S64x8192x8_0_0_0 (ix3 b s k))
      * rep8 (scaleB r) (ix3 b s k) = _
  rw [rep8_apply, slice3_axis2_apply 0 X slices_S64x8192x64_S64x8192x8_0_0_0 b s k (Cert.Qcl.feat k) (Nat.zero_add _).symm]

/-- A later state at `(b, s, k)`: the row mix of the previous state's row, times the next scale. -/
theorem stepB_apply (z : FVec Ideal S64x8192x8 .f32) (g : FVec Ideal S7 .f32) (r : FVec Ideal S8x3 .f32)
    (b : Fin 64) (s : Fin 8192) (k : Fin 8) :
    stepB z g r (ix3 b s k)
      = Cert.Qcl.mixRow (fun k' => g (ix1 k')) (fun k' => z (ix3 b s k')) k * scaleB r (ix1 k) := by
  show mixB z g (ix3 b s k) * rep8 (scaleB r) (ix3 b s k) = _
  rw [rep8_apply, mixB_apply]

end AtIdeal2

section Projection

/-- The weights' contraction: one axis, of extent 8. -/
abbrev D := dot_S64x8192x8_S16x8_S64x8192x16_2_1_01_0_n_n

/-- The left operand's index at result `(b, s, o)` and contraction position `k` is `(b, s, k)`. -/
theorem lhsIdx_eq (b : Fin 64) (s : Fin 8192) (o : Fin 16) (k : Fin 8) :
    D.lhsIdx (ix3 b s o) ((contrEquiv1 D 8 rfl rfl).symm k) = ix3 b s k := by
  funext a
  match a with
  | ⟨0, _⟩ => rfl
  | ⟨1, _⟩ => rfl
  | ⟨2, _⟩ =>
    exact Fin.ext ((DotDims.lhsIdx_val_of_single D (cl := (2 : Fin 3)) rfl (ix3 b s o) _).trans (contrEquiv1_symm_val D 8 rfl rfl k))

/-- The right operand's index at result `(b, s, o)` and contraction position `k` is `(o, k)`. -/
theorem rhsIdx_eq (b : Fin 64) (s : Fin 8192) (o : Fin 16) (k : Fin 8) :
    D.rhsIdx (ix3 b s o) ((contrEquiv1 D 8 rfl rfl).symm k) = ix2 o k := by
  funext a
  match a with
  | ⟨0, _⟩ => rfl
  | ⟨1, _⟩ =>
    exact Fin.ext ((DotDims.rhsIdx_val_of_single D (cr := (1 : Fin 2)) rfl (ix3 b s o) _).trans (contrEquiv1_symm_val D 8 rfl rfl k))

/-- The projection at `(b, s, o)`: the sum over the eight amplitudes of the row times the weights' row `o`, plus the bias. -/
theorem projB_apply (m : FVec Ideal S64x8192x8 .f32) (W : FVec Ideal S16x8 .f32) (B : FVec Ideal S16 .f32)
    (b : Fin 64) (s : Fin 8192) (o : Fin 16) :
    projB m W B (ix3 b s o) = (∑ k : Fin 8, m (ix3 b s k) * W (ix2 o k)) + B (ix1 o) := by
  show FloatOps.dotGeneral D none .single m W (ix3 b s o)
      + broadcastInDim S64x8192x16 ![0, 1, 2] bcast_S1x1x16_S64x8192x16_0_1_2 (broadcastInDim S1x1x16 ![2] bcast_S16_S1x1x16_2 B) (ix3 b s o) = _
  congr 1
  · rw [Ideal.dotGeneral_apply, ← Equiv.sum_comp (contrEquiv1 D 8 rfl rfl).symm]
    refine Finset.sum_congr rfl fun k _ => ?_
    rw [lhsIdx_eq, rhsIdx_eq]
  · refine (broadcastInDim_apply _ _ _ (ix3 b s o) (ix3 (0 : Fin 1) (0 : Fin 1) o) fun a => ?_).trans ?_
    · match a with
      | ⟨0, _⟩ => rfl
      | ⟨1, _⟩ => rfl
      | ⟨2, _⟩ => rfl
    · refine broadcastInDim_apply _ _ _ _ (ix1 o) fun a => ?_
      match a with
      | ⟨0, _⟩ => rfl

end Projection

/-! ## The four layers chained, row by row -/

section Chain

variable (X : FVec Ideal S64x8192x64 .f32) (R : FVec Ideal S4x8x3 .f32) (E : FVec Ideal S4x7 .f32)

/-- The scale block of layer `l`'s angles is the specification's scale. -/
theorem scale_eq (l : Nat) (l' : Fin 4) (hl : l'.val = l) (h : S4x8x3.Slices ![l, 0, 0] S1x8x3) (k : Fin 8) :
    scaleB (rotB R l h) (ix1 k) = Cert.Qcl.scl R l' k := by
  subst hl
  rw [scaleB_apply, rotB_apply R l'.val l'.isLt, rotB_apply R l'.val l'.isLt, rotB_apply R l'.val l'.isLt]
  rfl

/-- The gate block of layer `l`'s parameters is the specification's gate. -/
theorem gate_eq (l : Nat) (l' : Fin 4) (hl : l'.val = l) (h : S4x7.Slices ![l, 0] S1x7) (k : Fin 7) :
    gateB (entB E l h) (ix1 k) = Cert.Qcl.gate E l' k := by
  subst hl
  rw [gateB_apply, entB_apply E l'.val l'.isLt]
  rfl

/-- One layer on a row: when the state's row is `q` times layer `l`'s scale and the gates are layer `l`'s, the mixed
    row is layer `l` of `q`. -/
theorem mix_layer (z : FVec Ideal S64x8192x8 .f32) (g : FVec Ideal S7 .f32) (l : Fin 4) (q : Fin 8 → EReal)
    (b : Fin 64) (s : Fin 8192) (hz : ∀ k, z (ix3 b s k) = q k * Cert.Qcl.scl R l k)
    (hg : ∀ k, g (ix1 k) = Cert.Qcl.gate E l k) :
    Cert.Qcl.mixRow (fun k' => g (ix1 k')) (fun k' => z (ix3 b s k')) = Cert.Qcl.layer R E l q := by
  have h1 : (fun k' => g (ix1 k')) = Cert.Qcl.gate E l := funext hg
  have h2 : (fun k' => z (ix3 b s k')) = fun k => q k * Cert.Qcl.scl R l k := funext hz
  rw [h1, h2]
  rfl

/-- The state entering layer 0's mix, the states entering the later mixes, and the gates, as functions of the arguments. -/
def st0 : FVec Ideal S64x8192x8 .f32 := startB X (rotB R 0 slices_S4x8x3_S1x8x3_0_0_0)
def g0 : FVec Ideal S7 .f32 := gateB (entB E 0 slices_S4x7_S1x7_0_0)
def st1 : FVec Ideal S64x8192x8 .f32 := stepB (st0 X R) (g0 E) (rotB R 1 slices_S4x8x3_S1x8x3_1_0_0)
def g1 : FVec Ideal S7 .f32 := gateB (entB E 1 slices_S4x7_S1x7_1_0)
def st2 : FVec Ideal S64x8192x8 .f32 := stepB (st1 X R E) (g1 E) (rotB R 2 slices_S4x8x3_S1x8x3_2_0_0)
def g2 : FVec Ideal S7 .f32 := gateB (entB E 2 slices_S4x7_S1x7_2_0)
def st3 : FVec Ideal S64x8192x8 .f32 := stepB (st2 X R E) (g2 E) (rotB R 3 slices_S4x8x3_S1x8x3_3_0_0)
def g3 : FVec Ideal S7 .f32 := gateB (entB E 3 slices_S4x7_S1x7_3_0)

/-- Row `(b, s)`'s first amplitudes. -/
def q0 (b : Fin 64) (s : Fin 8192) : Fin 8 → EReal := fun k => Ideal.tanh (X (ix3 b s (Cert.Qcl.feat k)))

variable (b : Fin 64) (s : Fin 8192)

theorem st0_row (k : Fin 8) : st0 X R (ix3 b s k) = q0 X b s k * Cert.Qcl.scl R 0 k := by
  unfold st0
  rw [startB_apply, scale_eq R 0 0 rfl]
  rfl

theorem st1_row (k : Fin 8) : st1 X R E (ix3 b s k) = Cert.Qcl.layer R E 0 (q0 X b s) k * Cert.Qcl.scl R 1 k := by
  unfold st1
  rw [stepB_apply, scale_eq R 1 1 rfl,
    mix_layer R E (st0 X R) (g0 E) 0 (q0 X b s) b s (st0_row X R b s) (gate_eq E 0 0 rfl _)]

theorem st2_row (k : Fin 8) :
    st2 X R E (ix3 b s k) = Cert.Qcl.layer R E 1 (Cert.Qcl.layer R E 0 (q0 X b s)) k * Cert.Qcl.scl R 2 k := by
  unfold st2
  rw [stepB_apply, scale_eq R 2 2 rfl,
    mix_layer R E (st1 X R E) (g1 E) 1 _ b s (st1_row X R E b s) (gate_eq E 1 1 rfl _)]

theorem st3_row (k : Fin 8) :
    st3 X R E (ix3 b s k)
      = Cert.Qcl.layer R E 2 (Cert.Qcl.layer R E 1 (Cert.Qcl.layer R E 0 (q0 X b s))) k * Cert.Qcl.scl R 3 k := by
  unfold st3
  rw [stepB_apply, scale_eq R 3 3 rfl,
    mix_layer R E (st2 X R E) (g2 E) 2 _ b s (st2_row X R E b s) (gate_eq E 2 2 rfl _)]

/-- The last mix of row `(b, s)` is the four layers applied to the row's first amplitudes. -/
theorem last_row (k : Fin 8) : mixB (st3 X R E) (g3 E) (ix3 b s k) = Cert.Qcl.layers R E (q0 X b s) k := by
  rw [mixB_apply, mix_layer R E (st3 X R E) (g3 E) 3 _ b s (st3_row X R E b s) (gate_eq E 3 3 rfl _)]
  rfl

end Chain

/-! ## The result -/

/-- The reference's result term is the specification of its five arguments. -/
theorem value (V0 : Valuation τ sig (Elt Ideal)) :
    Cert.ReferenceIdeal.Value.val4 V0 (Proc.devRef .tc main_v201)
      = Cert.Qcl.result (V0 (Proc.devRef .tc main_arg0)) (V0 (Proc.devRef .tc main_arg1)) (V0 (Proc.devRef .tc main_arg2))
          (V0 (Proc.devRef .tc main_arg3)) (V0 (Proc.devRef .tc main_arg4)) := by
  rw [Cert.ReferenceIdeal.Value.val4_main_v201]
  funext i
  obtain ⟨b, s, o, rfl⟩ : ∃ (b : Fin 64) (s : Fin 8192) (o : Fin 16), i = ix3 b s o := ⟨i 0, i 1, i 2, eq_ix3 i⟩
  refine (projB_apply (mixB (st3 (V0 (Proc.devRef .tc main_arg0)) (V0 (Proc.devRef .tc main_arg1)) (V0 (Proc.devRef .tc main_arg2)))
    (g3 (V0 (Proc.devRef .tc main_arg2)))) (V0 (Proc.devRef .tc main_arg3)) (V0 (Proc.devRef .tc main_arg4)) b s o).trans ?_
  simp only [last_row]
  rfl

end Cert.Qcl.Ref

end
-- ==== Proof.lean ====
/-
  The certificate: a fused layer — tanh amplitude encoding of the first eight features, four rounds of a
  per-amplitude scale (a product of cos + sin over three angles) and a logistic-gated mix of neighbouring
  amplitudes, then a linear projection to sixteen outputs with bias — computed by a kernel over 64 blocks of 8192
  rows, equals the same formula computed by whole-array operations.

  On the extended reals both programs are one function of the arguments, row by row (Proof/RowSpec.lean): the
  kernel's change of float format before its product is the identity, its product into a zero accumulator and the
  reference's contraction are the same sum over the eight amplitudes, its logistic is the reference's
  1 / (1 + e^(−x)), and tanh, cos and sin are the same functions on both sides. No law that needs finite values is
  used, so the precondition is never opened.
  · the kernel's value: the body at a row (Proof/KernelRow.lean), the 64 blocks tiling the output and the casts
    around the region (Proof/KernelArray.lean);
  · the reference's value: its run's term read at an index (Proof/RefValue.lean).
  The frames are the generated ones; the idealization rewrote nothing, so `preserves` is trivial.
-/
import proofs.«170059_j15375982920210_1_alg».proof.Defs
import proofs.«170059_j15375982920210_1_alg».proof.Proof.Gen.Kernel
import proofs.«170059_j15375982920210_1_alg».proof.Proof.Gen.Kernel.Skeleton
import proofs.«170059_j15375982920210_1_alg».proof.Proof.Gen.Kernel.Launch
import proofs.«170059_j15375982920210_1_alg».proof.Proof.Gen.Kernel.Points
import proofs.«170059_j15375982920210_1_alg».proof.Proof.Gen.Kernel.Frame
import proofs.«170059_j15375982920210_1_alg».proof.Proof.Gen.KernelIdeal
import proofs.«170059_j15375982920210_1_alg».proof.Proof.Gen.KernelIdeal.Skeleton
import proofs.«170059_j15375982920210_1_alg».proof.Proof.Gen.KernelIdeal.Launch
import proofs.«170059_j15375982920210_1_alg».proof.Proof.Gen.KernelIdeal.Points
import proofs.«170059_j15375982920210_1_alg».proof.Proof.Gen.KernelIdeal.Frame
import proofs.«170059_j15375982920210_1_alg».proof.Proof.Gen.ReferenceIdeal
import proofs.«170059_j15375982920210_1_alg».proof.Proof.Gen.Pre_finite_inputs
import proofs.«170059_j15375982920210_1_alg».proof.Proof.Gen.ReferenceIdeal.Run
import proofs.«170059_j15375982920210_1_alg».proof.Proof.RowSpec
import proofs.«170059_j15375982920210_1_alg».proof.Proof.KernelArray
import proofs.«170059_j15375982920210_1_alg».proof.Proof.RefValue

noncomputable section

namespace Cert.Proof

open Idealize.ShloMosaic Idealize.ShloMosaic.TcCoe Idealize.SL.Sem

/-- The two idealized programs, from memories that agree on the arguments, both end at the row specification of the
    arguments. -/
theorem algebraic [hPre : Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [← (hagree c).1, ← (hagree c).2.1, ← (hagree c).2.2.1, ← (hagree c).2.2.2.1, ← (hagree c).2.2.2.2]
  exact (Cert.ReferenceIdeal.Value.val4_main_v201 (StableHlo.launchContents m' c)).symm.trans
    (Cert.Qcl.Ref.value (StableHlo.launchContents m' c))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
